-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x50257 : Shape := ⟨2, ![4096, 50257]⟩
abbrev S4096 : Shape := ⟨1, ![4096]⟩
abbrev S_ : Shape := ⟨0, ![]⟩

class Facts : Prop where
  bcast_S_S4096x50257 : S_.BroadcastsInDim S4096x50257 (![] : Fin 0 → Fin S4096x50257.rank)
  reducesTo_S4096x50257_S_d0_1 : S4096x50257.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x50257 .f32) (main_arg1 : IVec S4096 32) : IVec S_ 1 :=
  let main_v0 : FVec F S4096x50257 .f32 := Host.absf main_arg0
  let main_cst : FVec F S_ .f32 := constant S_ .f32 0x7F800000#32
  let main_v1 : FVec F S4096x50257 .f32 := broadcastInDim S4096x50257 ![] bcast_S_S4096x50257 main_cst
  let main_v2 : IVec S4096x50257 1 := cmpf .olt main_v0 main_v1
  let main_c : IVec S_ 1 := constantI S_ 1 1#1
  let main_v3 : IVec S_ 1 := (fun x v => Host.reduce IntOp.andi x v reducesTo_S4096x50257_S_d0_1 h_S_) main_v2 main_c
  let main_c_0 : IVec S_ 32 := constantI S_ 32 0#32
  let main_v4 : IVec S4096 32 := broadcastInDim S4096 ![] bcast_S_S4096 main_c_0
  let main_v5 : IVec S4096 1 := cmpi .sge main_arg1 main_v4
  let main_c_1 : IVec S_ 1 := constantI S_ 1 1#1
  let main_v6 : IVec S_ 1 := (fun x v => Host.reduce IntOp.andi x v reducesTo_S4096_S_d0 h_S_) main_v5 main_c_1
  let main_v7 : IVec S_ 1 := andi main_v3 main_v6
  let main_c_2 : IVec S_ 32 := constantI S_ 32 50257#32
  let main_v8 : IVec S4096 32 := broadcastInDim S4096 ![] bcast_S_S4096 main_c_2
  let main_v9 : IVec S4096 1 := cmpi .slt main_arg1 main_v8
  let main_c_3 : IVec S_ 1 := constantI S_ 1 1#1
  let main_v10 : IVec S_ 1 := (fun x v => Host.reduce IntOp.andi x v reducesTo_S4096_S_d0 h_S_) main_v9 main_c_3
  let main_v11 : IVec S_ 1 := andi main_v7 main_v10
  main_v11
-- ==== Kernel.lean ====
abbrev S4096x50257 : Shape := ⟨2, ![4096, 50257]⟩
abbrev S4096 : Shape := ⟨1, ![4096]⟩
abbrev S4096x1 : Shape := ⟨2, ![4096, 1]⟩
abbrev S32x50257 : Shape := ⟨2, ![32, 50257]⟩
abbrev S32x1 : Shape := ⟨2, ![32, 1]⟩
abbrev S32 : Shape := ⟨1, ![32]⟩
abbrev S_ : Shape := ⟨0, ![]⟩

abbrev nBuf : Space → Nat
  | .hbm => 8
  | .vmem => 6
  | .smem => 0
  | _ => 0

abbrev bufTy : (tb : Table) → Fin (tcTables nBuf tb) → BufTy
  | .hbm, ⟨0, _⟩ => ⟨S4096x50257, .f32⟩
  | .hbm, ⟨1, _⟩ => ⟨S4096, .i32⟩
  | .hbm, ⟨2, _⟩ => ⟨S4096x1, .i32⟩
  | .hbm, ⟨3, _⟩ => ⟨S4096x1, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S32x50257, .f32⟩
  | .local _ .vmem, ⟨1, _⟩ => ⟨S32x50257, .f32⟩
  | .local _ .vmem, ⟨2, _⟩ => ⟨S32x1, .i32⟩
  | .local _ .vmem, ⟨3, _⟩ => ⟨S32x1, .i32⟩
  | .local _ .vmem, ⟨4, _⟩ => ⟨S32x1, .f32⟩
  | .local _ .vmem, ⟨5, _⟩ => ⟨S32x1, .f32⟩
  | _, _ => ⟨S4096x50257, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x50257 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S4096_S4096x1 : S4096.ShapeCasts S4096x1
  inb_S32x50257_S32x50257_0_0 : ∀ a, (![0, 0] : Fin 2 → Nat) a + S32x50257.size a ≤ S32x50257.size a
  h_S32x50257 : 0 < S32x50257.numel
  inb_S32x1_S32x1_0_0 : ∀ a, (![0, 0] : Fin 2 → Nat) a + S32x1.size a ≤ S32x1.size a
  h_S32x1 : 0 < S32x1.numel
  shapeCasts_S32x1_S32x1 : S32x1.ShapeCasts S32x1
  iota_S32x50257_d1_w32 : S32x50257.Iotas .tc 32 [1]
  broadcasts_S32x1_S32x50257 : S32x1.Broadcasts S32x50257
  reduces_S32x50257_S32 : S32x50257.Reduces [1] S32
  shapeCasts_S32_S32x1 : S32.ShapeCasts S32x1
  reducesTo_S4096x1_S_d0_1 : S4096x1.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x50257.size a ≤ S4096x50257.size a
  hwx0_0 : ∀ i : grid0.Coords, EltTy.bits .f32 = 32 ∨ (Rect.block (s := S4096x50257) S32x50257.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x1.size a ≤ S4096x1.size a
  hwx0_1 : ∀ i : grid0.Coords, EltTy.bits .i32 = 32 ∨ (Rect.block (s := S4096x1) S32x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x1.size a ≤ S4096x1.size a
  hwx0_2 : ∀ i : grid0.Coords, EltTy.bits .f32 = 32 ∨ (Rect.block (s := S4096x1) S32x1.size (cc0_transform_2 i) (hinb0_2 i)).WholeWords (EltTy.packing .f32)

variable [Facts₀]

abbrev win0_0 : Pipeline.Window sig grid0 :=
  Pipeline.Window.ofSpec (Memref.whole main_arg0) S32x50257.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S32x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S32x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x50257 : Shape := ⟨2, ![4096, 50257]⟩
abbrev S4096 : Shape := ⟨1, ![4096]⟩
abbrev S_ : Shape := ⟨0, ![]⟩
abbrev S4096x1 : Shape := ⟨2, ![4096, 1]⟩
abbrev S4096x1x1 : Shape := ⟨3, ![4096, 1, 1]⟩
abbrev S1 : Shape := ⟨1, ![1]⟩
abbrev S1x1x1 : Shape := ⟨3, ![1, 1, 1]⟩
abbrev S50257 : Shape := ⟨1, ![50257]⟩
abbrev S1x50257 : Shape := ⟨2, ![1, 50257]⟩

abbrev nBuf : Space → Nat
  | .hbm => 69
  | .vmem => 0
  | .smem => 0
  | _ => 0

abbrev bufTy : (tb : Table) → Fin (tcTables nBuf tb) → BufTy
  | .hbm, ⟨0, _⟩ => ⟨S4096x50257, .f32⟩
  | .hbm, ⟨1, _⟩ => ⟨S4096, .i32⟩
  | .hbm, ⟨2, _⟩ => ⟨S_, .f32⟩
  | .hbm, ⟨3, _⟩ => ⟨S4096, .f32⟩
  | .hbm, ⟨4, _⟩ => ⟨S_, .f32⟩
  | .hbm, ⟨5, _⟩ => ⟨S4096, .f32⟩
  | .hbm, ⟨6, _⟩ => ⟨S4096, .f32⟩
  | .hbm, ⟨7, _⟩ => ⟨S4096x1, .f32⟩
  | .hbm, ⟨8, _⟩ => ⟨S4096x50257, .f32⟩
  | .hbm, ⟨9, _⟩ => ⟨S4096x50257, .f32⟩
  | .hbm, ⟨10, _⟩ => ⟨S4096x50257, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S4096x50257, .f32⟩
  | .hbm, ⟨15, _⟩ => ⟨S4096x50257, .f32⟩
  | .hbm, ⟨16, _⟩ => ⟨S4096x1, .i32⟩
  | .hbm, ⟨17, _⟩ => ⟨S_, .i32⟩
  | .hbm, ⟨18, _⟩ => ⟨S4096x1, .i32⟩
  | .hbm, ⟨19, _⟩ => ⟨S4096x1, .i1⟩
  | .hbm, ⟨20, _⟩ => ⟨S_, .i32⟩
  | .hbm, ⟨21, _⟩ => ⟨S4096x1, .i32⟩
  | .hbm, ⟨22, _⟩ => ⟨S4096x1, .i32⟩
  | .hbm, ⟨23, _⟩ => ⟨S4096x1, .i32⟩
  | .hbm, ⟨24, _⟩ => ⟨S4096x1x1, .i32⟩
  | .hbm, ⟨25, _⟩ => ⟨S1, .i32⟩
  | .hbm, ⟨26, _⟩ => ⟨S_, .i32⟩
  | .hbm, ⟨27, _⟩ => ⟨S4096x1x1, .i32⟩
  | .hbm, ⟨28, _⟩ => ⟨S4096x1x1, .i1⟩
  | .hbm, ⟨29, _⟩ => ⟨S1x1x1, .i32⟩
  | .hbm, ⟨30, _⟩ => ⟨S4096x1x1, .i32⟩
  | .hbm, ⟨31, _⟩ => ⟨S4096x1x1, .i1⟩
  | .hbm, ⟨32, _⟩ => ⟨S4096x1x1, .i1⟩
  | .hbm, ⟨33, _⟩ => ⟨S_, .i1⟩
  | .hbm, ⟨34, _⟩ => ⟨S4096x1, .i1⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S4096, .f32⟩
  | .hbm, ⟨40, _⟩ => ⟨S50257, .i32⟩
  | .hbm, ⟨41, _⟩ => ⟨S1x50257, .i32⟩
  | .hbm, ⟨42, _⟩ => ⟨S4096x1, .i32⟩
  | .hbm, ⟨43, _⟩ => ⟨S4096x50257, .i32⟩
  | .hbm, ⟨44, _⟩ => ⟨S4096x50257, .i32⟩
  | .hbm, ⟨45, _⟩ => ⟨S4096x50257, .i1⟩
  | .hbm, ⟨46, _⟩ => ⟨S_, .f32⟩
  | .hbm, ⟨47, _⟩ => ⟨S_, .f32⟩
  | .hbm, ⟨48, _⟩ => ⟨S4096x50257, .f32⟩
  | .hbm, ⟨49, _⟩ => ⟨S4096x50257, .f32⟩
  | .hbm, ⟨50, _⟩ => ⟨S_, .f32⟩
  | .hbm, ⟨51, _⟩ => ⟨S4096, .f32⟩
  | .hbm, ⟨52, _⟩ => ⟨S_, .f32⟩
  | .hbm, ⟨53, _⟩ => ⟨S4096, .f32⟩
  | .hbm, ⟨54, _⟩ => ⟨S4096, .f32⟩
  | .hbm, ⟨55, _⟩ => ⟨S4096, .f32⟩
  | .hbm, ⟨56, _⟩ => ⟨S4096, .f32⟩
  | .hbm, ⟨57, _⟩ => ⟨S_, .f32⟩
  | .hbm, ⟨58, _⟩ => ⟨S4096, .f32⟩
  | .hbm, ⟨59, _⟩ => ⟨S4096, .f32⟩
  | .hbm, ⟨60, _⟩ => ⟨S_, .f32⟩
  | .hbm, ⟨61, _⟩ => ⟨S4096, .f32⟩
  | .hbm, ⟨62, _⟩ => ⟨S4096, .f32⟩
  | .hbm, ⟨63, _⟩ => ⟨S4096, .f32⟩
  | .hbm, ⟨64, _⟩ => ⟨S4096, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | _, _ => ⟨S4096x50257, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_c_1 : Ref sig .tc := ⟨.hbm, 25, rfl⟩
abbrev main_call0_c_2 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_3 : Ref sig .tc := ⟨.hbm, 33, rfl⟩
abbrev main_call0_v12 : Ref sig .tc := ⟨.hbm, 34, rfl⟩
abbrev main_call0_v13 : Ref sig .tc := ⟨.hbm, 35, rfl⟩
abbrev main_call0_cst : Ref sig .tc := ⟨.hbm, 36, rfl⟩
abbrev main_call0_v14 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_cst_2 : Ref sig .tc := ⟨.hbm, 46, rfl⟩
abbrev main_call1_v0 : Ref sig .tc := ⟨.hbm, 47, rfl⟩
abbrev main_call1_v1 : Ref sig .tc := ⟨.hbm, 48, rfl⟩
abbrev main_v20 : Ref sig .tc := ⟨.hbm, 49, rfl⟩
abbrev main_cst_3 : Ref sig .tc := ⟨.hbm, 50, rfl⟩
abbrev main_v21 : Ref sig .tc := ⟨.hbm, 51, rfl⟩
abbrev main_cst_4 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_cst_5 : Ref sig .tc := ⟨.hbm, 57, rfl⟩
abbrev main_v26 : Ref sig .tc := ⟨.hbm, 58, rfl⟩
abbrev main_v27 : Ref sig .tc := ⟨.hbm, 59, rfl⟩
abbrev main_cst_6 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_cst_7 : Ref sig .tc := ⟨.hbm, 65, rfl⟩
abbrev main_v32 : Ref sig .tc := ⟨.hbm, 66, rfl⟩
abbrev main_cst_8 : Ref sig .tc := ⟨.hbm, 67, rfl⟩
abbrev main_v33 : Ref sig .tc := ⟨.hbm, 68, rfl⟩

abbrev nD : Nat := 1
abbrev τ : Topo := Topo.v7x

variable {F : FTy → Type} [FloatOps F]

class Facts₀ : Prop where
  reducesTo_S4096x50257_S4096_d1 : S4096x50257.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x50257_0_1 : S4096x1.BroadcastsInDim S4096x50257 (![0, 1] : Fin 2 → Fin S4096x50257.rank)
  bcast_S_S4096x1 : S_.BroadcastsInDim S4096x1 (![] : Fin 0 → Fin S4096x1.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  shapeCasts_S4096x1_S4096 : S4096x1.ShapeCasts S4096
  bcast_S50257_S1x50257_1 : S50257.BroadcastsInDim S1x50257 (![1] : Fin 1 → Fin S1x50257.rank)
  bcast_S1x50257_S4096x50257_0_1 : S1x50257.BroadcastsInDim S4096x50257 (![0, 1] : Fin 2 → Fin S4096x50257.rank)
  bcast_S_S4096x50257 : S_.BroadcastsInDim S4096x50257 (![] : Fin 0 → Fin S4096x50257.rank)
  reducesTo_S4096_S_d0 : S4096.ReducesTo [0] S_
  gather_S4096x50257_S4096x1x1_S4096x1_n_1_0_0_1_2_11_wf : GatherDims.WF S4096x50257 S4096x1x1 S4096x1 [] [1] [0] [1] [0] 2 ![1, 1]

variable [Facts₀]

def gather_S4096x50257_S4096x1x1_S4096x1_n_1_0_0_1_2_11 : GatherDims S4096x50257 S4096x1x1 S4096x1 where
  offsetDims := []
  collapsedSliceDims := [1]
  operandBatchingDims := [0]
  startIndicesBatchingDims := [0]
  startIndexMap := [1]
  indexVectorDim := 2
  sliceSizes := ![1, 1]
  wf := gather_S4096x50257_S4096x1x1_S4096x1_n_1_0_0_1_2_11_wf

class Facts : Prop extends Facts₀ where

variable [Facts]
-- ==== Proof.Spec.lean ====
/-
  The mathematics both programs compute, stated once over the extended reals and free of either program's text.

  A row of logits is a function `r` on the 50257 classes and a label is a 32-bit word `t`.  Column `j` is "the
  label's column" when the word of `j` equals `t` (`hit`).  The kernel takes the label's logit `xt` and the largest
  other logit `xmi` as two masked maxima, normalises the exponentials by `m = max xt xmi` and their sum, and forms
  `-log (p_label + ε) - log (1 - p_other + ε)` (`lossK`).  The reference forms the whole softmax row first, reads the
  label's probability at a column `tc` and takes the masked maximum of the probabilities (`lossR`).  Both then average
  the 4096 row losses (`mean`).  The literals are kept as the f32 words both programs carry.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The number of classes (columns). -/
abbrev NC : Nat := 50257
/-- The number of rows. -/
abbrev NB : Nat := 4096

/-- `-∞`, the fill of both masks and the start of every maximum. -/
abbrev ninf : EReal := Ideal.ofBits .f32 0xFF800000#32
/-- `0`, the start of every sum. -/
abbrev zero : EReal := Ideal.ofBits .f32 0x00000000#32
/-- `1`. -/
abbrev one : EReal := Ideal.ofBits .f32 0x3F800000#32
/-- The f32 nearest `1e-7`: the same word in both programs. -/
abbrev eps : EReal := Ideal.ofBits .f32 0x33D6BF95#32
/-- `4096`, the divisor of the mean. -/
abbrev nrows : EReal := Ideal.ofBits .f32 0x45800000#32

/-- Column `j` is the label's column: the word of `j` equals the label word `t`. -/
def hit (t : BitVec 32) (j : Fin NC) : BitVec 1 := IntOp.cmpi .eq (BitVec.ofNat 32 j.val) t

/-- The maximum of a row from `-∞`. -/
def foldMax (f : Fin NC → EReal) : EReal := (Finset.univ : Finset (Fin NC)).fold max ninf f

/-- The kernel's row loss: masked maxima of the logits first, one normaliser `m`, then the two probabilities. -/
def lossK (r : Fin NC → EReal) (t : BitVec 32) : EReal :=
  let xt := foldMax fun j => Scalar.select (hit t j) (r j) ninf
  let xmi := foldMax fun j => Scalar.select (hit t j) ninf (r j)
  let m := max xt xmi
  let s := ∑ j : Fin NC, Ideal.exp (r j - m)
  let pt := Ideal.div (Ideal.exp (xt - m)) s
  let pmi := Ideal.div (Ideal.exp (xmi - m)) s
  (zero - Ideal.log (pt + eps)) - Ideal.log ((one - pmi) + eps)

/-- The softmax of a row at a column, as jax spells it: shifted by the row maximum, divided by the sum from zero. -/
def softmax (r : Fin NC → EReal) (j : Fin NC) : EReal :=
  Ideal.div (Ideal.exp (r j - max ninf (foldMax r))) (zero + ∑ k : Fin NC, Ideal.exp (r k - max ninf (foldMax r)))

/-- The reference's row loss: the label's probability read at column `tc`, the masked maximum of the probabilities. -/
def lossR (r : Fin NC → EReal) (t : BitVec 32) (tc : Fin NC) : EReal :=
  let pt := softmax r tc
  let pmi := foldMax fun j => Scalar.select (hit t j) ninf (softmax r j)
  (-(Ideal.log (pt + eps))) - Ideal.log ((one - pmi) + eps)

/-- The column a label word names once read as a signed integer and clamped into the row (a gather's start index). -/
def col (t : BitVec 32) : Fin NC := ⟨min t.toInt.toNat 50256, by show min t.toInt.toNat 50256 < 50257; omega⟩

/-- The mean of the row losses: their sum from zero over `4096`. -/
def mean (L : Fin NB → EReal) : EReal := Ideal.div (zero + ∑ b : Fin NB, L b) nrows

end Cert.Spec

end
-- ==== Proof.Algebra.lean ====
/-
  The two row losses agree.

  The label's word names exactly one column, so the kernel's first masked maximum is the label's logit, the
  pointwise maximum of its two masked rows is the row itself (so its normaliser is the row maximum, the
  reference's), and a monotone map commutes with a maximum over a nonempty set of columns, which carries the
  kernel's "probability of the largest other logit" to the reference's "largest other probability".
-/
import proofs.«403393_j64725157151246_3_alg».proof.Proof.Spec
import Idealize.ShloMosaic.Lib.StableHlo.Predicate
import Mathlib.Data.Finset.Lattice.Fold
import Mathlib.Data.EReal.Operations
import Mathlib.Data.EReal.Inv

noncomputable section

open scoped BigOperators

namespace Cert.Algebra

open Cert.Spec Idealize.ShloMosaic Idealize.ShloMosaic.ValueIdx

/-! ### The literals -/

/-- The mask fill is -∞. -/
theorem ninf_eq : ninf = ⊥ := by
  show Ideal.ofBits .f32 0xFF800000#32 = ⊥
  simp [Ideal.ofBits, Ideal.ieee]

/-- The start of a sum is 0. -/
theorem zero_eq : zero = 0 := Ideal.ofBits_zero_f32

/-! ### Maxima over an abstract finite index type -/

section General

variable {ι : Type} [Fintype ι] [DecidableEq ι]

/-- A row that is -∞ off one column has that column's entry as its maximum. -/
theorem sup_only (g : ι → EReal) (c : ι) :
    (Finset.univ.sup fun j => if j = c then g j else ⊥) = g c := by
  apply le_antisymm
  · apply Finset.sup_le
    intro j _
    by_cases h : j = c
    · rw [if_pos h, h]
    · rw [if_neg h]; exact bot_le
  · have h := Finset.le_sup (f := fun j => if j = c then g j else ⊥) (Finset.mem_univ c)
    simpa using h

/-- A row masked to -∞ at one column has the maximum of the row over the other columns. -/
theorem sup_except (g : ι → EReal) (c : ι) :
    (Finset.univ.sup fun j => if j = c then ⊥ else g j) = (Finset.univ.erase c).sup g := by
  apply le_antisymm
  · apply Finset.sup_le
    intro j _
    by_cases h : j = c
    · rw [if_pos h]; exact bot_le
    · rw [if_neg h]; exact Finset.le_sup (Finset.mem_erase.2 ⟨h, Finset.mem_univ j⟩)
  · apply Finset.sup_le
    intro j hj
    have hne : j ≠ c := (Finset.mem_erase.1 hj).1
    have h := Finset.le_sup (f := fun j => if j = c then ⊥ else g j) (Finset.mem_univ j)
    simpa [hne] using h

/-- The two masked maxima together give the maximum of the whole row. -/
theorem max_sup_only_except (g : ι → EReal) (c : ι) :
    max (Finset.univ.sup fun j => if j = c then g j else ⊥) (Finset.univ.sup fun j => if j = c then ⊥ else g j)
      = Finset.univ.sup g := by
  rw [← Finset.sup_sup]
  congr 1
  funext j
  by_cases h : j = c <;> simp [h]

/-- A monotone map carries the masked maximum of a row to the masked maximum of the mapped row, once another
    column exists. -/
theorem map_sup_except (g : ι → EReal) (c : ι) (hne : (Finset.univ.erase c).Nonempty) (f : EReal → EReal)
    (hf : Monotone f) :
    f (Finset.univ.sup fun j => if j = c then ⊥ else g j) = Finset.univ.sup fun j => if j = c then ⊥ else f (g j) := by
  rw [sup_except, sup_except]
  exact Finset.apply_sup_eq_sup_comp_of_nonempty hf hne

end General

/-! ### The map from a logit to its probability is monotone -/

/-- The exponential is nonnegative. -/
theorem exp_nonneg (x : EReal) : 0 ≤ Ideal.exp x := by
  induction x using EReal.rec with
  | bot => rw [Ideal.exp_bot]
  | coe x => rw [Ideal.exp_coe]; exact_mod_cast (Real.exp_pos x).le
  | top => rw [Ideal.exp_top]; exact le_top

/-- The exponential is monotone. -/
theorem exp_mono : Monotone Ideal.exp := by
  intro a b hab
  induction a using EReal.rec with
  | bot => rw [Ideal.exp_bot]; exact exp_nonneg b
  | top => rw [top_le_iff.1 hab]
  | coe x =>
    induction b using EReal.rec with
    | bot => exact absurd hab (not_le.2 (EReal.bot_lt_coe x))
    | top => rw [Ideal.exp_top]; exact le_top
    | coe y =>
      rw [Ideal.exp_coe, Ideal.exp_coe]
      exact_mod_cast Real.exp_le_exp.2 (by exact_mod_cast hab)

/-- Division by a nonnegative quantity is monotone in the numerator. -/
theorem div_mono_left {s : EReal} (hs : 0 ≤ s) : Monotone fun x => Ideal.div x s := by
  intro a b hab
  show Ideal.div a s ≤ Ideal.div b s
  unfold Ideal.div
  by_cases h0 : s = 0
  · rw [if_pos h0, if_pos h0]
    by_cases ha : 0 < a
    · rw [if_pos ha, if_pos (lt_of_lt_of_le ha hab)]
    · rw [if_neg ha]; exact bot_le
  · rw [if_neg h0, if_neg h0]
    exact mul_le_mul_of_nonneg_right hab (EReal.inv_nonneg_of_nonneg hs)

/-! ### The two losses over an abstract finite index type -/

section Core

variable {ι : Type} [Fintype ι] [DecidableEq ι]

/-- The kernel's loss of a row, written over its two masked maxima, is the reference's, written over the softmax
    row: c is the label's column, e and o stand for the two literals the closing expressions share. -/
theorem core (r : ι → EReal) (c : ι) (hne : (Finset.univ.erase c).Nonempty) (e o : EReal) :
    (0 - Ideal.log (Ideal.div (Ideal.exp ((Finset.univ.sup fun j => if j = c then r j else ⊥)
          - max (Finset.univ.sup fun j => if j = c then r j else ⊥) (Finset.univ.sup fun j => if j = c then ⊥ else r j)))
        (∑ j, Ideal.exp (r j
          - max (Finset.univ.sup fun j => if j = c then r j else ⊥) (Finset.univ.sup fun j => if j = c then ⊥ else r j)))
        + e))
      - Ideal.log ((o - Ideal.div (Ideal.exp ((Finset.univ.sup fun j => if j = c then ⊥ else r j)
          - max (Finset.univ.sup fun j => if j = c then r j else ⊥) (Finset.univ.sup fun j => if j = c then ⊥ else r j)))
        (∑ j, Ideal.exp (r j
          - max (Finset.univ.sup fun j => if j = c then r j else ⊥) (Finset.univ.sup fun j => if j = c then ⊥ else r j))))
        + e)
    = (-(Ideal.log (Ideal.div (Ideal.exp (r c - max ⊥ (Finset.univ.sup r)))
          (0 + ∑ k, Ideal.exp (r k - max ⊥ (Finset.univ.sup r))) + e)))
      - Ideal.log ((o - Finset.univ.sup fun j => if j = c then ⊥ else
          Ideal.div (Ideal.exp (r j - max ⊥ (Finset.univ.sup r)))
            (0 + ∑ k, Ideal.exp (r k - max ⊥ (Finset.univ.sup r)))) + e) := by
  rw [max_sup_only_except, sup_only, max_bot_left, zero_add, zero_sub]
  have hS : 0 ≤ ∑ k, Ideal.exp (r k - Finset.univ.sup r) := Finset.sum_nonneg fun k _ => exp_nonneg _
  have hf : Monotone fun y => Ideal.div (Ideal.exp (y - Finset.univ.sup r)) (∑ k, Ideal.exp (r k - Finset.univ.sup r)) :=
    fun a b h => div_mono_left hS (exp_mono (EReal.sub_le_sub h le_rfl))
  have key := map_sup_except r c hne _ hf
  beta_reduce at key
  rw [key]

end Core

/-! ### The label's column -/

/-- A maximum of a row from -∞ is the lattice supremum over the columns. -/
theorem foldMax_eq_sup (f : Fin NC → EReal) : foldMax f = Finset.univ.sup f := by
  unfold foldMax
  rw [ninf_eq]
  rfl

/-- A label in range names the column of its own value. -/
theorem col_val (t : BitVec 32) (h0 : 0 ≤ t.toInt) (h1 : t.toInt < 50257) : (col t).val = t.toNat := by
  have hc := BitVec.toInt_eq_toNat_cond t
  have hlt := t.isLt
  show min t.toInt.toNat 50256 = t.toNat
  split at hc <;> omega

/-- The label's column is the only column whose word is the label. -/
theorem hit_iff (t : BitVec 32) (h0 : 0 ≤ t.toInt) (h1 : t.toInt < 50257) (j : Fin NC) :
    hit t j = 1#1 ↔ j = col t := by
  unfold hit
  rw [StableHlo.Predicate.cmpi_eq_iff]
  have hv := col_val t h0 h1
  have hj : j.val < 50257 := j.isLt
  have hc : (col t).val < 50257 := (col t).isLt
  constructor
  · intro h
    apply Fin.ext
    have h' := congrArg BitVec.toNat h
    rw [BitVec.toNat_ofNat] at h'
    omega
  · intro h
    subst h
    apply BitVec.eq_of_toNat_eq
    rw [BitVec.toNat_ofNat, hv]
    omega

/-- A select on the label's mask is a choice on the column. -/
theorem select_hit (t : BitVec 32) (h0 : 0 ≤ t.toInt) (h1 : t.toInt < 50257) (j : Fin NC) (a b : EReal) :
    Scalar.select (hit t j) a b = if j = col t then a else b := by
  by_cases h : j = col t
  · rw [if_pos h, (hit_iff t h0 h1 j).2 h, select_one]
  · rw [if_neg h, eq_zero_of_ne_one (fun h' => h ((hit_iff t h0 h1 j).1 h')), select_zero]

/-- Every column has another column beside it. -/
theorem other_col (c : Fin NC) : (Finset.univ.erase c).Nonempty := by
  by_cases h : c.val = 0
  · refine ⟨⟨1, by show 1 < 50257; omega⟩, Finset.mem_erase.2 ⟨?_, Finset.mem_univ _⟩⟩
    intro e
    rw [← e] at h
    exact Nat.one_ne_zero h
  · refine ⟨⟨0, by show 0 < 50257; omega⟩, Finset.mem_erase.2 ⟨?_, Finset.mem_univ _⟩⟩
    intro e
    rw [← e] at h
    exact h rfl

/-! ### The statement -/

theorem lossK_eq_lossR (r : Fin NC → EReal) (t : BitVec 32)
    (hfin : ∀ j, r j ≠ ⊥ ∧ r j ≠ ⊤) (h0 : 0 ≤ t.toInt) (h1 : t.toInt < 50257) :
    lossK r t = lossR r t (col t) := by
  unfold lossK lossR softmax
  simp only [select_hit t h0 h1, foldMax_eq_sup, ninf_eq, zero_eq]
  exact core r (col t) (other_col _) eps one

end Cert.Algebra

end
-- ==== Proof.PreDecode.lean ====
/-
  The printed precondition, read back.  The precondition is three universal statements joined by `and`: every
  logit has absolute value below `+∞`, every label is at least `0` as a signed word, and every label is below
  `50257` as a signed word.  Each universal statement is a reduction by `and` from `1` over all axes, so the
  whole being `1` makes every compared element `1`.  An extended real whose absolute value `max a (-a)` lies
  strictly below `⊤` is neither `⊥` nor `⊤`; a signed comparison of words that came out `1` is the comparison
  of their integer values.
-/
import proofs.«403393_j64725157151246_3_alg».proof.Pre_finite_inputs
import Idealize.ShloMosaic.Lib.ReduceAll
import Idealize.ShloMosaic.Lib.StableHlo.Predicate
import Idealize.ShloMosaic.PureOps.Ideal
import Idealize.ShloMosaic.PureOps.Ideal.Laws
import Idealize.ShloMosaic.Lib.ValueIdx

noncomputable section

namespace Cert.PreDecode

open Idealize.ShloMosaic Idealize.ShloMosaic.ValueIdx

/-- The rank-0 shape has one index. -/
instance : Subsingleton Cert.Pre_finite_inputs.S_.Idx := ⟨fun a b => funext fun d => d.elim0⟩

/-- The f32 word `0x7F800000` is `+∞`. -/
theorem ofBits_pinf : Ideal.ofBits .f32 0x7F800000#32 = (⊤ : EReal) := by
  simp [Ideal.ofBits, Ideal.ieee]

/-- An extended real whose absolute value is strictly below `+∞` is finite. -/
theorem finite_of_abs_lt_top (a : EReal) (h : Ideal.cmp .olt (max a (-a)) (⊤ : EReal) = 1#1) : a ≠ ⊥ ∧ a ≠ ⊤ := by
  have h' : max a (-a) < ⊤ := by
    simp only [Ideal.cmp] at h
    by_contra hn
    simp [hn] at h
  rw [max_lt_iff] at h'
  refine ⟨?_, ?_⟩
  · rintro rfl
    simp at h'
  · rintro rfl
    simp at h'

theorem decode [Cert.Pre_finite_inputs.Facts]
    (x : FVec Ideal Cert.Pre_finite_inputs.S4096x50257 .f32) (tg : IVec Cert.Pre_finite_inputs.S4096 32)
    (h : Cert.Pre_finite_inputs.fn (F := Ideal) x tg = fun _ => 1#1) :
    (∀ i, x i ≠ ⊥ ∧ x i ≠ ⊤) ∧ (∀ b, 0 ≤ (tg b).toInt ∧ (tg b).toInt < 50257) := by
  have h0 := congrFun h ValueIdx.ix0
  dsimp only [Cert.Pre_finite_inputs.fn] at h0
  obtain ⟨h12, h3⟩ := IntOp.andi_eq_one.1 h0
  obtain ⟨h1, h2⟩ := IntOp.andi_eq_one.1 h12
  refine ⟨fun i => ?_, fun b => ⟨?_, ?_⟩⟩
  · have e := Host.reduce_andi_all _ _ _ _ ix0 h1 i
    rw [cmpf_apply, StableHlo.Predicate.bcast_scalar _ Cert.Pre_finite_inputs.Facts.h_S_, constant_apply, ofBits_pinf] at e
    exact finite_of_abs_lt_top _ e
  · have e := Host.reduce_andi_all _ _ _ _ ix0 h2 b
    change IntOp.cmpi .sge (tg b) (broadcastInDim _ _ _ _ b) = 1#1 at e
    rw [StableHlo.Predicate.bcast_scalar _ Cert.Pre_finite_inputs.Facts.h_S_] at e
    change IntOp.cmpi .sge (tg b) (0#32) = 1#1 at e
    rw [IntOp.cmpi_sge] at e
    have z : (0#32 : BitVec 32).toInt = 0 := by decide
    omega
  · have e := Host.reduce_andi_all _ _ _ _ ix0 h3 b
    change IntOp.cmpi .slt (tg b) (broadcastInDim _ _ _ _ b) = 1#1 at e
    rw [StableHlo.Predicate.bcast_scalar _ Cert.Pre_finite_inputs.Facts.h_S_] at e
    change IntOp.cmpi .slt (tg b) (50257#32) = 1#1 at e
    rw [IntOp.cmpi_slt] at e
    have z : (50257#32 : BitVec 32).toInt = 50257 := by decide
    omega

end Cert.PreDecode

end
-- ==== Proof.RefValue.lean ====
/-
  The reference's value, read as mathematics.  Stage by stage the printed reference is read at one index: the two row
  maxima as folds of `max` over the 50257 columns, the softmax of a row at a column, the label's probability as the
  softmax at the label's own column (the in-range test is true and the gather's start index is the label clamped into
  the row), the masked maximum of the probabilities, the row loss, and last the mean over the 4096 rows.
-/
import proofs.«403393_j64725157151246_3_alg».proof.Proof.Gen.ReferenceIdeal.Read
import proofs.«403393_j64725157151246_3_alg».proof.Proof.Spec
import Idealize.ShloMosaic.PureOps.Reduce
import Idealize.ShloMosaic.PureOps.Ideal
import Idealize.ShloMosaic.PureOps.Ideal.Laws
import Idealize.ShloMosaic.Lib.ValueIdx
import Idealize.ShloMosaic.Lib.ValueIdxRank1
import Idealize.ShloMosaic.Lib.Affine

set_option Elab.async false

noncomputable section

open scoped BigOperators

namespace Cert.RefValue

open Cert.ReferenceIdeal Cert.ReferenceIdeal.Gen Cert.ReferenceIdeal.Read Cert.Spec Idealize.ShloMosaic Idealize.ShloMosaic.ValueIdx

/-! ## Row maxima -/

/-- A maximum over the columns of a rank-2 array from `-∞`, at row `b`: the fold of `max` over the row. -/
theorem rowMax_apply (y : (⟨S4096x50257, .f32⟩ : BufTy).Contents (Elt Ideal)) (init : (⟨S_, .f32⟩ : BufTy).Contents (Elt Ideal))
    (hinit : init (Shape.Idx.first h_S_) = ninf) (b : Fin 4096) :
    Host.reduce (FloatOps.maximumf (F := Ideal) (φ := .f32)) y init reducesTo_S4096x50257_S4096_d1 h_S_ (ix1 b)
      = foldMax fun j => y (ix2 b j) := by
  rw [Host.reduce_eq_fold_single (FloatOps.maximumf (F := Ideal) (φ := .f32)) y init reducesTo_S4096x50257_S4096_d1 (by decide) h_S_ (ix1 b), hinit]
  unfold foldMax
  refine congrArg (fun f => Finset.fold max ninf f (Finset.univ : Finset (Fin 50257))) (funext fun k => ?_)
  exact congrArg y (funext fun a => Fin.ext (by match a with | ⟨0, _⟩ => rfl | ⟨1, _⟩ => rfl))

/-- The first row maximum: of the logits. -/
theorem v0_apply (x : (⟨S4096x50257, .f32⟩ : BufTy).Contents (Elt Ideal)) (b : Fin 4096) :
    val_main_v0 (F := Ideal) x (ix1 b) = foldMax fun j => x (ix2 b j) :=
  rowMax_apply x _ rfl b

/-- The second row maximum: of the masked probabilities. -/
theorem v21_apply (x : (⟨S4096x50257, .f32⟩ : BufTy).Contents (Elt Ideal)) (tg : (⟨S4096, .i32⟩ : BufTy).Contents (Elt Ideal))
    (b : Fin 4096) :
    val_main_v21 (F := Ideal) x tg (ix1 b) = foldMax fun j => val_main_v20 (F := Ideal) x tg (ix2 b j) :=
  rowMax_apply _ _ rfl b

/-! ## The softmax of a row -/

/-- The row maximum joined with `-∞` and broadcast back over the row. -/
theorem v4_apply (x : (⟨S4096x50257, .f32⟩ : BufTy).Contents (Elt Ideal)) (b : Fin 4096) (j : Fin 50257) :
    val_main_v4 (F := Ideal) x (ix2 b j) = max ninf (foldMax fun k => x (ix2 b k)) := by
  rw [val_main_v4_apply, val_main_v3_apply, val_main_v2_apply, val_main_v1_apply, val_main_cst_0_apply,
    show idx_main_v3 (idx_main_v4 (ix2 b j)) = ix1 b from funext fun a => Fin.ext (by match a with | ⟨0, _⟩ => rfl),
    v0_apply]
  rfl

/-- The exponential of the shifted logit. -/
theorem v6_apply (x : (⟨S4096x50257, .f32⟩ : BufTy).Contents (Elt Ideal)) (b : Fin 4096) (j : Fin 50257) :
    val_main_v6 (F := Ideal) x (ix2 b j) = Ideal.exp (x (ix2 b j) - max ninf (foldMax fun k => x (ix2 b k))) := by
  rw [val_main_v6_apply, val_main_v5_apply, v4_apply]
  rfl

/-- The row's sum of exponentials, from zero. -/
theorem v7_apply (x : (⟨S4096x50257, .f32⟩ : BufTy).Contents (Elt Ideal)) (b : Fin 4096) :
    val_main_v7 (F := Ideal) x (ix1 b)
      = zero + ∑ k : Fin NC, Ideal.exp (x (ix2 b k) - max ninf (foldMax fun k => x (ix2 b k))) := by
  rw [val_main_v7_apply]
  refine congrArg (zero + ·) (Finset.sum_congr rfl fun k _ => ?_)
  rw [show idx_main_v7 (ix1 b) k = ix2 b k from funext fun a => Fin.ext (by match a with | ⟨0, _⟩ => rfl | ⟨1, _⟩ => rfl),
    v6_apply]

/-- The probabilities: the softmax of row `b` at column `j`. -/
theorem v10_apply (x : (⟨S4096x50257, .f32⟩ : BufTy).Contents (Elt Ideal)) (b : Fin 4096) (j : Fin 50257) :
    val_main_v10 (F := Ideal) x (ix2 b j) = softmax (fun j => x (ix2 b j)) j := by
  rw [val_main_v10_apply, val_main_v9_apply, val_main_v8_apply,
    show idx_main_v8 (idx_main_v9 (ix2 b j)) = ix1 b from funext fun a => Fin.ext (by match a with | ⟨0, _⟩ => rfl),
    v7_apply, v6_apply]
  rfl

/-! ## The label's column: the wrap, the in-range test, the gather -/

/-- The label of row `b`, broadcast to a column. -/
theorem v11_apply (tg : (⟨S4096, .i32⟩ : BufTy).Contents (Elt Ideal)) (b : Fin 4096) :
    val_main_v11 (F := Ideal) tg (ix2 b 0) = tg (ix1 b) := by
  rw [val_main_v11_apply]
  exact congrArg tg (funext fun a => Fin.ext (by match a with | ⟨0, _⟩ => rfl))

/-- A non-negative label is not wrapped: the select on "label below zero" takes the label itself. -/
theorem call0_v4_apply (tg : (⟨S4096, .i32⟩ : BufTy).Contents (Elt Ideal)) (b : Fin 4096)
    (h0 : 0 ≤ (tg (ix1 b)).toInt) :
    val_main_call0_v4 (F := Ideal) tg (ix2 b 0) = tg (ix1 b) := by
  rw [val_main_call0_v4_apply, val_main_call0_v1_apply, val_main_call0_v0_apply, val_main_call0_c_apply, v11_apply]
  have hc : IntOp.cmpi .slt (tg (ix1 b)) 0#32 = 0#1 :=
    eq_zero_of_ne_one fun h => by
      have := IntOp.cmpi_slt.1 h
      rw [show (0#32 : BitVec 32).toInt = 0 from by decide] at this
      omega
  rw [hc, select_zero]

/-- The start indices of the gather: the (unwrapped) label at `(b, 0, 0)`. -/
theorem call0_v5_apply (tg : (⟨S4096, .i32⟩ : BufTy).Contents (Elt Ideal)) (b : Fin 4096)
    (h0 : 0 ≤ (tg (ix1 b)).toInt) :
    val_main_call0_v5 (F := Ideal) tg (ix3 b 0 0) = tg (ix1 b) := by
  rw [val_main_call0_v5_apply,
    show idx_main_call0_v5 (ix3 b (0 : Fin 1) (0 : Fin 1)) = ix2 b 0 from funext fun a => Fin.ext (by
      match a with
      | ⟨0, _⟩ => show ((b.val * 1 + 0) * 1 + 0) / 1 = b.val; omega
      | ⟨1, _⟩ => rfl),
    call0_v4_apply tg b h0]

/-- The in-range test of the start index is true for a label in `[0, 50257)`. -/
theorem call0_v11_apply (tg : (⟨S4096, .i32⟩ : BufTy).Contents (Elt Ideal)) (b : Fin 4096)
    (h0 : 0 ≤ (tg (ix1 b)).toInt) (h1 : (tg (ix1 b)).toInt < 50257) :
    val_main_call0_v11 (F := Ideal) tg (ix3 b 0 0) = 1#1 := by
  rw [val_main_call0_v11_apply, val_main_call0_v7_apply, val_main_call0_v10_apply, call0_v5_apply tg b h0,
    val_main_call0_v6_apply, val_main_call0_c_2_apply, val_main_call0_v9_apply, val_main_call0_v8_apply,
    val_main_call0_c_1_apply]
  refine IntOp.andi_eq_one.2 ⟨IntOp.cmpi_sge.2 ?_, IntOp.cmpi_sle.2 ?_⟩
  · rw [show (0#32 : BitVec 32).toInt = 0 from by decide]; exact h0
  · rw [show (50256#32 : BitVec 32).toInt = 50256 from by decide]; omega

/-- A fold of `and` from true over one-bit words that are all true is true. -/
theorem fold_andi_eq_one {ι : Type} (s : Finset ι) (f : ι → BitVec 1) [Std.Commutative (IntOp.andi (w := 1))]
    [Std.Associative (IntOp.andi (w := 1))] (hf : ∀ i ∈ s, f i = 1#1) : s.fold IntOp.andi 1#1 f = 1#1 := by
  classical
  induction s using Finset.induction_on with
  | empty => rfl
  | insert a s ha ih =>
    rw [Finset.fold_insert ha, ih fun i hi => hf i (Finset.mem_insert_of_mem hi), hf a (Finset.mem_insert_self a s)]
    rfl

/-- The conjunction over the unit axis of the in-range tests: one element, which is true. -/
theorem call0_v12_apply (tg : (⟨S4096, .i32⟩ : BufTy).Contents (Elt Ideal)) (b : Fin 4096)
    (h0 : 0 ≤ (tg (ix1 b)).toInt) (h1 : (tg (ix1 b)).toInt < 50257) :
    val_main_call0_v12 (F := Ideal) tg (ix2 b 0) = 1#1 := by
  haveI : Std.Commutative (IntOp.andi (w := 1)) := ⟨BitVec.and_comm⟩
  haveI : Std.Associative (IntOp.andi (w := 1)) := ⟨BitVec.and_assoc⟩
  have hR : Shape.Reduces S4096x1x1 [2] S4096x1 := by decide
  have hl : ∀ k : Fin (S4096x1x1.size 2), hR.lift (ix2 b 0) k = ix3 b 0 0 := fun k => funext fun a => Fin.ext (by
    match a with
    | ⟨0, _⟩ => rfl
    | ⟨1, _⟩ => rfl
    | ⟨2, _⟩ =>
      show k.val = 0
      have : k.val < 1 := k.isLt
      omega)
  unfold val_main_call0_v12
  rw [Host.reduce_eq_fold_single IntOp.andi _ _ reducesTo_S4096x1x1_S4096x1_d2 hR h_S_ (ix2 b 0)]
  refine fold_andi_eq_one _ _ fun k _ => ?_
  show val_main_call0_v11 (F := Ideal) tg (hR.lift (ix2 b 0) k) = 1#1
  rw [hl k]
  exact call0_v11_apply tg b h0 h1

/-- The gather's operand index at result `(b, 0)`, on the row axis (the batching axis): `b`. -/
theorem gather_coord0 (idx : IVec S4096x1x1 32) (b : Fin 4096) :
    (GatherDims.operandIdx gather_S4096x50257_S4096x1x1_S4096x1_n_1_0_0_1_2_11 (ix2 b 0) idx (0 : Fin 2)).val = b.val := by
  show GatherDims.start gather_S4096x50257_S4096x1x1_S4096x1_n_1_0_0_1_2_11 (ix2 b 0) idx (0 : Fin 2)
      + GatherDims.batchCoord gather_S4096x50257_S4096x1x1_S4096x1_n_1_0_0_1_2_11 (ix2 b 0) (0 : Fin 2)
      + GatherDims.offCoord gather_S4096x50257_S4096x1x1_S4096x1_n_1_0_0_1_2_11 (ix2 b 0) (0 : Fin 2) = b.val
  rw [GatherDims.start_batching _ _ _ _ (by decide), GatherDims.offCoord_eq_zero _ _ _ (by decide)]
  unfold GatherDims.batchCoord
  rw [dif_pos (by decide)]
  simp only [Nat.zero_add, Nat.add_zero]
  rfl

/-- The gather's operand index at result `(b, 0)`, on the column axis: the start index `idx (b, 0, 0)` read signed
    and clamped into the row. -/
theorem gather_coord1 (idx : IVec S4096x1x1 32) (b : Fin 4096) :
    (GatherDims.operandIdx gather_S4096x50257_S4096x1x1_S4096x1_n_1_0_0_1_2_11 (ix2 b 0) idx (1 : Fin 2)).val
      = min (idx (ix3 b 0 0)).toInt.toNat 50256 := by
  show GatherDims.start gather_S4096x50257_S4096x1x1_S4096x1_n_1_0_0_1_2_11 (ix2 b 0) idx (1 : Fin 2)
      + GatherDims.batchCoord gather_S4096x50257_S4096x1x1_S4096x1_n_1_0_0_1_2_11 (ix2 b 0) (1 : Fin 2)
      + GatherDims.offCoord gather_S4096x50257_S4096x1x1_S4096x1_n_1_0_0_1_2_11 (ix2 b 0) (1 : Fin 2) = _
  rw [GatherDims.batchCoord_eq_zero _ _ _ (by decide), GatherDims.offCoord_eq_zero _ _ _ (by decide)]
  simp only [Nat.add_zero]
  unfold GatherDims.start
  rw [dif_pos (by decide)]
  have hsi : GatherDims.siIdx gather_S4096x50257_S4096x1x1_S4096x1_n_1_0_0_1_2_11 (ix2 b 0)
      ⟨List.idxOf (1 : Fin 2) (GatherDims.startIndexMap gather_S4096x50257_S4096x1x1_S4096x1_n_1_0_0_1_2_11),
        List.idxOf_lt_length_iff.2 (by decide)⟩ = ix3 b 0 0 := by
    funext a; refine Fin.ext ?_
    match a with
    | ⟨0, _⟩ => rfl
    | ⟨1, _⟩ => rfl
    | ⟨2, _⟩ => rfl
  rw [hsi]
  rfl

/-- The gather reads row `b` at the start index `idx (b, 0, 0)`, read signed and clamped into the row. -/
theorem gather_apply {α : Type} (y : S4096x50257.Idx → α) (idx : IVec S4096x1x1 32) (b : Fin 4096) :
    Host.gather gather_S4096x50257_S4096x1x1_S4096x1_n_1_0_0_1_2_11 y idx (ix2 b 0)
      = y (ix2 b (col (idx (ix3 b 0 0)))) := by
  unfold Host.gather
  congr 1
  funext a
  refine Fin.ext ?_
  match a with
  | ⟨0, _⟩ => exact gather_coord0 idx b
  | ⟨1, _⟩ => exact gather_coord1 idx b

/-! ## The label's probability, the masked probabilities, the row loss -/

/-- The label's probability: the softmax of row `b` at the label's column. -/
theorem v13_apply (x : (⟨S4096x50257, .f32⟩ : BufTy).Contents (Elt Ideal)) (tg : (⟨S4096, .i32⟩ : BufTy).Contents (Elt Ideal))
    (b : Fin 4096) (h0 : 0 ≤ (tg (ix1 b)).toInt) (h1 : (tg (ix1 b)).toInt < 50257) :
    val_main_v13 (F := Ideal) x tg (ix1 b) = softmax (fun j => x (ix2 b j)) (col (tg (ix1 b))) := by
  rw [val_main_v13_apply,
    show idx_main_v13 (ix1 b) = ix2 b 0 from funext fun a => Fin.ext (by
      match a with
      | ⟨0, _⟩ => show b.val / 1 = b.val; omega
      | ⟨1, _⟩ => rfl),
    val_main_v12_apply, call0_v12_apply tg b h0 h1, select_one]
  unfold val_main_call0_v13
  rw [gather_apply, call0_v5_apply tg b h0, v10_apply]

/-- The probabilities with the label's column filled with `-∞`. -/
theorem v20_apply (x : (⟨S4096x50257, .f32⟩ : BufTy).Contents (Elt Ideal)) (tg : (⟨S4096, .i32⟩ : BufTy).Contents (Elt Ideal))
    (b : Fin 4096) (j : Fin 50257) :
    val_main_v20 (F := Ideal) x tg (ix2 b j)
      = Scalar.select (hit (tg (ix1 b)) j) ninf (softmax (fun j => x (ix2 b j)) j) := by
  rw [val_main_v20_apply, v10_apply, val_main_v19_apply, val_main_v17_apply, val_main_v15_apply, val_main_v14_apply,
    val_main_v18_apply, val_main_v16_apply, val_main_call1_v1_apply, val_main_call1_v0_apply, val_main_cst_2_apply,
    show idx_main_v16 (idx_main_v18 (ix2 b j)) = ix1 b from funext fun a => Fin.ext (by match a with | ⟨0, _⟩ => rfl)]
  rfl

/-- The loss of row `b`. -/
theorem row (x : (⟨S4096x50257, .f32⟩ : BufTy).Contents (Elt Ideal)) (tg : (⟨S4096, .i32⟩ : BufTy).Contents (Elt Ideal))
    (b : Fin 4096) (h0 : 0 ≤ (tg (ix1 b)).toInt) (h1 : (tg (ix1 b)).toInt < 50257) :
    val_main_v31 (F := Ideal) x tg (ix1 b)
      = lossR (fun j => x (ix2 b j)) (tg (ix1 b)) (col (tg (ix1 b))) := by
  rw [val_main_v31_apply, val_main_v25_apply, val_main_v24_apply, val_main_v23_apply, v13_apply x tg b h0 h1,
    val_main_v22_apply, val_main_cst_4_apply, val_main_v30_apply, val_main_v29_apply, val_main_v27_apply,
    val_main_v26_apply, val_main_cst_5_apply, val_main_v28_apply, val_main_cst_6_apply, v21_apply]
  simp only [v20_apply, Ideal.subf_def, Ideal.addf_def, Ideal.hostNegf_def, Ideal.negf_def, Ideal.hostUnary_log_def,
    Ideal.ofBits_def, lossR]

/-! ## The mean -/

/-- The reference's result: the mean over the rows of the row losses, for labels in `[0, 50257)`. -/
theorem ref_value
    (x : (⟨S4096x50257, .f32⟩ : BufTy).Contents (Elt Ideal)) (tg : (⟨S4096, .i32⟩ : BufTy).Contents (Elt Ideal))
    (hr : ∀ b : Fin NB, 0 ≤ (tg (ix1 b)).toInt ∧ (tg (ix1 b)).toInt < 50257) :
    val_main_v33 (F := Ideal) x tg
      = fun _ => mean (fun b => lossR (fun j => x (ix2 b j)) (tg (ix1 b)) (col (tg (ix1 b)))) := by
  funext i
  rw [val_main_v33_apply, val_main_v32_apply, val_main_cst_8_apply, val_main_cst_7_apply,
    ← Equiv.sum_comp (idxEquiv1 (n := 4096)).symm]
  unfold mean
  show Ideal.div (zero + ∑ b : Fin 4096, val_main_v31 (F := Ideal) x tg (ix1 b)) nrows = _
  refine congrArg (fun s => Ideal.div (zero + s) nrows) (Finset.sum_congr rfl fun b _ => ?_)
  exact row x tg b (hr b).1 (hr b).2

end Cert.RefValue

end
-- ==== Proof.KernelRow.lean ====
/-
  Row `p` of the block the kernel body stores is the row loss `lossK` of row `p` of the logits block and of the label
  word of row `p`.

  The body's arithmetic is one pure term over the two loaded vectors.  Its pointwise operations read through an index by
  definition; what is left are the layout operations (the label column spread along the classes, a reduced vector viewed
  as a column, the class counter) and the three reductions along the classes (two masked maxima, one sum of
  exponentials).  Each is read here at row `p`; the kernel's four intermediate columns `xt`, `xmi`, `m`, `s` are named
  and identified at row `p` with the `let`s of `lossK`; the statement follows by unfolding `lossK`.
-/
import proofs.«403393_j64725157151246_3_alg».proof.Proof.Gen.KernelIdeal.Skeleton
import proofs.«403393_j64725157151246_3_alg».proof.Proof.Spec
import Idealize.ShloMosaic.Lib.Pipeline.Value
import Idealize.ShloMosaic.Lib.ValueLayout
import Idealize.ShloMosaic.PureOps.Ideal.Laws
import Idealize.ShloMosaic.Lib.ValueIdx

noncomputable section

open scoped BigOperators

namespace Cert.KernelRow

open Cert.KernelIdeal Cert.KernelIdeal.Gen Cert.Spec Idealize.ShloMosaic Idealize.ShloMosaic.ValueIdx

/-! ## The layout operations at row `p` -/

section Layout
variable {α : Type}

/-- A vector over the 32 rows viewed as a column reads, at `(p, 0)`, the vector at `p`: both sit at row-major
    position `p`. -/
theorem column_apply (v : S32.Idx → α) (h : S32.ShapeCasts S32x1) (p : Fin 32) :
    shapeCast S32x1 v h (ix2 p (0 : Fin 1)) = v (ix1 p) :=
  shapeCast_apply v h (ix2 p (0 : Fin 1)) (ix1 p) (by
    rw [Shape.rowMajor_val_one, Shape.rowMajor_val_two]
    show p.val = p.val * 1 + 0
    omega)

/-- A column spread along the classes reads, at `(p, j)`, the column at `(p, 0)`: the row axis is kept (its extent is
    not one), the unit axis reads its only coordinate. -/
theorem spread_apply (v : S32x1.Idx → α) (h : S32x1.Broadcasts S32x50257) (p : Fin 32) (j : Fin 50257) :
    broadcastTo S32x50257 v h (ix2 p j) = v (ix2 p (0 : Fin 1)) :=
  broadcastTo_apply v h (ix2 p j) (ix2 p (0 : Fin 1)) fun a =>
    match a with
    | ⟨0, _⟩ => rfl
    | ⟨1, _⟩ => rfl

/-- The class counter reads, at `(p, j)`, the word of `j`. -/
theorem counter_apply (h : S32x50257.Iotas .tc 32 [1]) (p : Fin 32) (j : Fin 50257) :
    iota .tc S32x50257 32 [1] h (ix2 p j) = BitVec.ofNat 32 j.val :=
  iota_single_apply .tc S32x50257 32 1 h (ix2 p j)

end Layout

/-! ## The reductions along the classes at row `p` -/

/-- The source index over row `p` with class `k` inserted is `(p, k)`. -/
theorem lift_row (h : S32x50257.Reduces [1] S32) (p : Fin 32) (k : Fin 50257) : h.lift (ix1 p) k = ix2 p k :=
  funext fun c => Fin.ext (match c with | ⟨0, _⟩ => rfl | ⟨1, _⟩ => rfl)

/-- A maximum along the classes from `-∞` is, at row `p`, the maximum of that row from `-∞`. -/
theorem rowMax_apply (v : FVec Ideal S32x50257 .f32) (h : S32x50257.Reduces [1] S32) (hφ : FKind.Formats .f32)
    (hacc : (0xFF800000#32 : BitVec 32) = FKind.maximumf.neutral .f32 hφ) (p : Fin 32) :
    multiReduction (F := Ideal) .maximumf [1] S32 v 0xFF800000#32 h hφ hacc (ix1 p) = foldMax fun k => v (ix2 p k) := by
  refine (Ideal.multiReduction_maximumf_single v _ h hφ hacc (ix1 p)).trans ?_
  have e : v ∘ h.lift (ix1 p) = fun k : Fin 50257 => v (ix2 p k) := funext fun k => congrArg v (lift_row h p k)
  exact congrArg (fun f : Fin 50257 → EReal => (Finset.univ : Finset (Fin 50257)).fold max ninf f) e

/-- A sum along the classes is, at row `p`, the sum of that row. -/
theorem rowSum_apply (v : FVec Ideal S32x50257 .f32) (h : S32x50257.Reduces [1] S32) (hφ : FKind.Formats .f32)
    (hacc : (0x00000000#32 : BitVec 32) = FKind.add.neutral .f32 hφ) (p : Fin 32) :
    multiReduction (F := Ideal) .add [1] S32 v 0x00000000#32 h hφ hacc (ix1 p) = ∑ k : Fin NC, v (ix2 p k) := by
  refine (Ideal.multiReduction_add_single v _ h hφ hacc (ix1 p)).trans ?_
  exact Finset.sum_congr rfl fun k _ => congrArg v (lift_row h p k)

/-! ## The kernel's intermediate columns

The body's term, cut where `lossK` has its `let`s: the mask, the two masked maxima `xt` and `xmi` as columns, their maximum
`m`, and the sum `s` of the exponentials of the logits shifted by `m`. -/

/-- The mask: the class counter equals the label column spread along the classes. -/
def mask (x1 : Vec Ideal S32x1 .i32) : IVec S32x50257 1 :=
  cmpi .eq (iota .tc S32x50257 32 [1] iota_S32x50257_d1_w32)
    (broadcastTo S32x50257 (shapeCast S32x1 x1 shapeCasts_S32x1_S32x1) broadcasts_S32x1_S32x50257)

/-- The label's logit: the maximum along the classes of the logits kept on the mask, `-∞` off it, as a column. -/
def kxt (x0 : Vec Ideal S32x50257 .f32) (x1 : Vec Ideal S32x1 .i32) : FVec Ideal S32x1 .f32 :=
  shapeCast S32x1
    (multiReduction (F := Ideal) .maximumf [1] S32
      (select (mask x1) x0 (broadcast S32x50257 (Scalar.ofBits (F := Ideal) .f32 0xFF800000#32)))
      0xFF800000#32 reduces_S32x50257_S32 (.inl rfl) rfl)
    shapeCasts_S32_S32x1

/-- The largest other logit: the maximum along the classes of `-∞` on the mask, the logits off it, as a column. -/
def kxmi (x0 : Vec Ideal S32x50257 .f32) (x1 : Vec Ideal S32x1 .i32) : FVec Ideal S32x1 .f32 :=
  shapeCast S32x1
    (multiReduction (F := Ideal) .maximumf [1] S32
      (select (mask x1) (broadcast S32x50257 (Scalar.ofBits (F := Ideal) .f32 0xFF800000#32)) x0)
      0xFF800000#32 reduces_S32x50257_S32 (.inl rfl) rfl)
    shapeCasts_S32_S32x1

/-- The normaliser: the larger of the two. -/
def km (x0 : Vec Ideal S32x50257 .f32) (x1 : Vec Ideal S32x1 .i32) : FVec Ideal S32x1 .f32 :=
  maximumf (kxt x0 x1) (kxmi x0 x1)

/-- The sum along the classes of the exponentials of the logits shifted by the normaliser, as a column. -/
def ks (x0 : Vec Ideal S32x50257 .f32) (x1 : Vec Ideal S32x1 .i32) : FVec Ideal S32x1 .f32 :=
  shapeCast S32x1
    (multiReduction (F := Ideal) .add [1] S32
      (exp (subf x0 (broadcastTo S32x50257 (km x0 x1) broadcasts_S32x1_S32x50257)))
      0x00000000#32 reduces_S32x50257_S32 (.inl rfl) rfl)
    shapeCasts_S32_S32x1

/-- The body's term over the four columns: every operation after them is pointwise. -/
theorem pay_vec (x0 : Vec Ideal S32x50257 .f32) (x1 : Vec Ideal S32x1 .i32) :
    k0_pay1 (F := Ideal) x0 x1
      = subf (subf (broadcast S32x1 (Scalar.ofBits (F := Ideal) .f32 0x00000000#32))
            (log (addf (divf (exp (subf (kxt x0 x1) (km x0 x1))) (ks x0 x1))
              (broadcast S32x1 (Scalar.ofBits (F := Ideal) .f32 0x33D6BF95#32)))))
          (log (addf (subf (broadcast S32x1 (Scalar.ofBits (F := Ideal) .f32 0x3F800000#32))
              (divf (exp (subf (kxmi x0 x1) (km x0 x1))) (ks x0 x1)))
            (broadcast S32x1 (Scalar.ofBits (F := Ideal) .f32 0x33D6BF95#32)))) :=
  rfl

/-- Such a term at an index, for any four columns: the pointwise operations read through the index. -/
theorem tail_apply (a b c d : FVec Ideal S32x1 .f32) (i : S32x1.Idx) :
    subf (subf (broadcast S32x1 (Scalar.ofBits (F := Ideal) .f32 0x00000000#32))
            (log (addf (divf (exp (subf a c)) d)
              (broadcast S32x1 (Scalar.ofBits (F := Ideal) .f32 0x33D6BF95#32)))))
          (log (addf (subf (broadcast S32x1 (Scalar.ofBits (F := Ideal) .f32 0x3F800000#32))
              (divf (exp (subf b c)) d))
            (broadcast S32x1 (Scalar.ofBits (F := Ideal) .f32 0x33D6BF95#32)))) i
      = (zero - Ideal.log (Ideal.div (Ideal.exp (a i - c i)) (d i) + eps))
          - Ideal.log ((one - Ideal.div (Ideal.exp (b i - c i)) (d i)) + eps) :=
  rfl

/-- The body's result at an index of the stored column. -/
theorem pay_eq (x0 : Vec Ideal S32x50257 .f32) (x1 : Vec Ideal S32x1 .i32) (i : S32x1.Idx) :
    k0_pay1 (F := Ideal) x0 x1 i
      = (zero - Ideal.log (Ideal.div (Ideal.exp (kxt x0 x1 i - km x0 x1 i)) (ks x0 x1 i) + eps))
          - Ideal.log ((one - Ideal.div (Ideal.exp (kxmi x0 x1 i - km x0 x1 i)) (ks x0 x1 i)) + eps) :=
  (congrFun (pay_vec x0 x1) i).trans (tail_apply (kxt x0 x1) (kxmi x0 x1) (km x0 x1) (ks x0 x1) i)

/-! ## The columns at row `p` -/

/-- The mask at `(p, j)` is "column `j` is the label's column" for the label word of row `p`. -/
theorem mask_row (x1 : Vec Ideal S32x1 .i32) (p : Fin 32) (j : Fin 50257) :
    mask x1 (ix2 p j) = hit (x1 (ix2 p (0 : Fin 1))) j := by
  show IntOp.cmpi .eq (iota .tc S32x50257 32 [1] iota_S32x50257_d1_w32 (ix2 p j))
      (broadcastTo S32x50257 (shapeCast S32x1 x1 shapeCasts_S32x1_S32x1) broadcasts_S32x1_S32x50257 (ix2 p j))
    = IntOp.cmpi .eq (BitVec.ofNat 32 j.val) (x1 (ix2 p (0 : Fin 1)))
  rw [counter_apply, spread_apply, shapeCast_self]

/-- `xt` at row `p`. -/
theorem kxt_row (x0 : Vec Ideal S32x50257 .f32) (x1 : Vec Ideal S32x1 .i32) (p : Fin 32) :
    kxt x0 x1 (ix2 p (0 : Fin 1))
      = foldMax fun j => Scalar.select (hit (x1 (ix2 p (0 : Fin 1))) j) (x0 (ix2 p j)) ninf := by
  unfold kxt
  refine (column_apply _ _ p).trans ?_
  refine (rowMax_apply _ _ _ _ p).trans ?_
  refine congrArg foldMax (funext fun j => ?_)
  exact congrArg (fun c => Scalar.select c (x0 (ix2 p j)) ninf) (mask_row x1 p j)

/-- `xmi` at row `p`. -/
theorem kxmi_row (x0 : Vec Ideal S32x50257 .f32) (x1 : Vec Ideal S32x1 .i32) (p : Fin 32) :
    kxmi x0 x1 (ix2 p (0 : Fin 1))
      = foldMax fun j => Scalar.select (hit (x1 (ix2 p (0 : Fin 1))) j) ninf (x0 (ix2 p j)) := by
  unfold kxmi
  refine (column_apply _ _ p).trans ?_
  refine (rowMax_apply _ _ _ _ p).trans ?_
  refine congrArg foldMax (funext fun j => ?_)
  exact congrArg (fun c => Scalar.select c ninf (x0 (ix2 p j))) (mask_row x1 p j)

/-- `m` at row `p`. -/
theorem km_row (x0 : Vec Ideal S32x50257 .f32) (x1 : Vec Ideal S32x1 .i32) (p : Fin 32) :
    km x0 x1 (ix2 p (0 : Fin 1))
      = max (foldMax fun j => Scalar.select (hit (x1 (ix2 p (0 : Fin 1))) j) (x0 (ix2 p j)) ninf)
          (foldMax fun j => Scalar.select (hit (x1 (ix2 p (0 : Fin 1))) j) ninf (x0 (ix2 p j))) := by
  unfold km
  exact (maximumf_apply (kxt x0 x1) (kxmi x0 x1) (ix2 p (0 : Fin 1))).trans
    (congrArg₂ max (kxt_row x0 x1 p) (kxmi_row x0 x1 p))

/-- The exponential of a block shifted by a column spread along the classes, at `(p, j)`, for any block and column. -/
theorem shifted_apply (v : FVec Ideal S32x50257 .f32) (c : FVec Ideal S32x1 .f32) (h : S32x1.Broadcasts S32x50257)
    (p : Fin 32) (j : Fin 50257) :
    exp (subf v (broadcastTo S32x50257 c h)) (ix2 p j) = Ideal.exp (v (ix2 p j) - c (ix2 p (0 : Fin 1))) := by
  show Ideal.exp (v (ix2 p j) - broadcastTo S32x50257 c h (ix2 p j)) = _
  rw [spread_apply]

/-- `s` at row `p`. -/
theorem ks_row (x0 : Vec Ideal S32x50257 .f32) (x1 : Vec Ideal S32x1 .i32) (p : Fin 32) :
    ks x0 x1 (ix2 p (0 : Fin 1))
      = ∑ j : Fin NC, Ideal.exp (x0 (ix2 p j)
          - max (foldMax fun j => Scalar.select (hit (x1 (ix2 p (0 : Fin 1))) j) (x0 (ix2 p j)) ninf)
              (foldMax fun j => Scalar.select (hit (x1 (ix2 p (0 : Fin 1))) j) ninf (x0 (ix2 p j)))) := by
  unfold ks
  refine (column_apply _ _ p).trans ?_
  refine (rowSum_apply _ _ _ _ p).trans ?_
  refine Finset.sum_congr rfl fun j _ => ?_
  refine (shifted_apply x0 (km x0 x1) _ p j).trans ?_
  rw [km_row]

/-! ## The statement -/

/-- Row `p` of the body's result is `lossK` of row `p` of the logits block and the label word of row `p`. -/
theorem pay_row (x0 : Vec Ideal S32x50257 .f32) (x1 : Vec Ideal S32x1 .i32) (p : Fin 32) :
    k0_pay1 (F := Ideal) x0 x1 (ix2 p (0 : Fin 1))
      = lossK (fun j => x0 (ix2 p j)) (x1 (ix2 p (0 : Fin 1))) := by
  rw [pay_eq, ks_row, km_row, kxt_row, kxmi_row]
  unfold lossK
  with_reducible rfl

end Cert.KernelRow

end
-- ==== Proof.KernelValue.lean ====
/-
  What the kernel's program leaves in its result: the mean of the 4096 row losses.

  The region's grid has 128 points; point `t` stages rows `32 t … 32 t + 31` of the logits (all 50257 columns) and of
  the label column, and writes back the 32 losses of those rows.  So after the region the loss column holds, at row `b`,
  the kernel's row loss of logits row `b` and label `b`; the blocks tile the column.  The two host lines after the
  region add the column up from zero and divide by 4096.
-/
import proofs.«403393_j64725157151246_3_alg».proof.Proof.Gen.KernelIdeal.Frame
import proofs.«403393_j64725157151246_3_alg».proof.Proof.Spec
import proofs.«403393_j64725157151246_3_alg».proof.Proof.KernelRow
import Idealize.ShloMosaic.Lib.Pipeline.Value
import Idealize.ShloMosaic.Lib.StableHlo.Run
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelValue

open Cert.KernelIdeal Cert.KernelIdeal.Gen Cert.Spec

variable (m : (ℓ : Loc nD τ sig) → Buf (Elt Ideal) ℓ) (ρ : Dev nD → PrngReg)

theorem hz : (![0, 0] : Fin 2 → Nat) = fun _ => 0 := funext fun a => by fin_cases a <;> rfl

/-- The logits as launched. -/
abbrev X (c : Dev nD) : S4096x50257.Idx → EReal := m ((c : Thread nD τ).loc main_arg0)
/-- The labels as launched. -/
abbrev T (c : Dev nD) : S4096.Idx → BitVec 32 := m ((c : Thread nD τ).loc main_arg1)

/-- The loss column: at row `b` the kernel's row loss of logits row `b` and label `b`. -/
def G (c : Dev nD) : S4096x1.Idx → Elt Ideal .f32 :=
  fun i => lossK (fun j => X m c (ix2 ⟨(i 0).val, (i 0).isLt⟩ j)) (T m c (ix1 ⟨(i 0).val, (i 0).isLt⟩))

/-- The printed index maps over the grid: every window is at block row `t`, block column `0`. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The label column the region finds is the labels, row by row. -/
theorem V_v0 (c : Dev nD) : (V m c main_v0 : S4096x1.Idx → BitVec 32)
    = shapeCast S4096x1 (T m c) shapeCasts_S4096_S4096x1 := by
  show StableHlo.after hostOps0 (fun b => m (c, b)) (Proc.devRef .tc main_v0) = _
  after_results
  rfl

/-- The loss column at a row named by its number. -/
theorem G_apply (c : Dev nD) (i : S4096x1.Idx) (k : Fin 4096) (hk : (i 0).val = k.val) :
    G m c i = lossK (fun j => X m c (ix2 k j)) (T m c (ix1 k)) := by
  unfold G
  have e : (⟨(i 0).val, (i 0).isLt⟩ : Fin 4096) = k := Fin.ext hk
  rw [e]

/-- Row `p` of point `t`'s logits block is logits row `32 t + p`, column by column. -/
theorem iblk0_apply (c : Dev nD) (t : Fin cfg0.N) (p : Fin 32) (j : Fin 50257) (k : Fin 4096)
    (hk : k.val = 32 * t.val + p.val) :
    (iblk m c 0 t : Vec Ideal S32x50257 .f32) (ix2 p j) = X m c (ix2 k j) := by
  obtain ⟨e0, e1, -⟩ := idx_facts t
  unfold iblk
  rw [View.read_apply]
  show V m c main_arg0 _ = _
  rw [V_main_arg0]
  congr 1
  funext a
  apply Fin.ext
  match a with
  | ⟨0, _⟩ => show win0_0.index t (0 : Fin 2) * 32 + 1 * p.val = k.val; rw [e0, hk]; omega
  | ⟨1, _⟩ => show win0_0.index t (1 : Fin 2) * 50257 + 1 * j.val = j.val; rw [e1]; omega

/-- Row `p` of point `t`'s label block is label `32 t + p`. -/
theorem iblk1_apply (c : Dev nD) (t : Fin cfg0.N) (p : Fin 32) (k : Fin 4096)
    (hk : k.val = 32 * t.val + p.val) :
    (iblk m c 1 t : Vec Ideal S32x1 .i32) (ix2 p (0 : Fin 1)) = T m c (ix1 k) := by
  obtain ⟨-, -, e0, e1, -⟩ := idx_facts t
  unfold iblk
  rw [View.read_apply]
  show V m c main_v0 _ = _
  refine (congrFun (V_v0 m c) _).trans ?_
  refine shapeCast_apply _ _ _ _ ?_
  rw [Shape.rowMajor_val_one, Shape.rowMajor_val_two]
  show k.val = (win0_1.index t (0 : Fin 2) * 32 + 1 * p.val) * 1 + (win0_1.index t (1 : Fin 2) * 1 + 1 * 0)
  rw [e0, e1, hk]; omega

/-- What point `t` writes back is block `t` of the loss column. -/
theorem flushed_eq (c : Dev nD) (t : Fin cfg0.N) :
    (dats m 0 c).flushed 2 t = ((cfg0.win 2).blk t).view.read (Elt Ideal) (G m c) := by
  show (cfg0.win 2).cut (grid0.coords t) ((dats m 0 c).after 2 t) = _
  rw [after0_2]
  unfold out0_2
  rw [View.canon_unit_zero hz]
  simp only [View.ld_unit_zero (S := S32x50257) hz, View.ld_unit_zero (S := S32x1) hz]
  funext y
  obtain ⟨p, q, rfl⟩ : ∃ (p : Fin 32) (q : Fin 1), y = ix2 p q := ⟨y 0, y 1, eq_ix2 y⟩
  obtain rfl : q = 0 := Subsingleton.elim _ _
  have hN : cfg0.N = 128 := N_0
  have ht : t.val < 128 := hN ▸ t.isLt
  obtain ⟨-, -, -, -, e0, e1⟩ := idx_facts t
  show k0_pay1 (F := Ideal) (iblk m c 0 t) (iblk m c 1 t) (ix2 p (0 : Fin 1)) = G m c (((cfg0.win 2).blk t).view.emb (ix2 p (0 : Fin 1)))
  refine (Cert.KernelRow.pay_row (iblk m c 0 t) (iblk m c 1 t) p).trans ?_
  refine Eq.trans ?_ (G_apply m c _ ⟨32 * t.val + p.val, by omega⟩ ?_).symm
  · congr 1
    · funext j; exact iblk0_apply m c t p j _ rfl
    · exact iblk1_apply m c t p _ rfl
  · show win0_2.index t (0 : Fin 2) * 32 + 1 * p.val = 32 * t.val + p.val
    rw [e0]; omega

/-- An index of the loss column is in point `t`'s block iff each coordinate is in the block's range on its axis. -/
theorem mem_blk (t : Fin cfg0.N) (i : S4096x1.Idx) :
    i ∈ ((cfg0.win 2).blk t).view.set ↔ ∀ a : Fin 2, win0_2.index t a * S32x1.size a ≤ (i a).val ∧ (i a).val < win0_2.index t a * S32x1.size a + S32x1.size a := by
  show i ∈ ((View.whole main_v1).slice (win0_2.rect t)).set ↔ _
  rw [View.set_slice_whole, Rect.mem_set_unit]
  exact Iff.rfl

/-- The blocks tile the column: row `b` is in the block of point `b / 32`. -/
theorem cover (i : S4096x1.Idx) :
    ∃ t : Fin cfg0.N, (cfg0.win 2).flush t = true ∧ i ∈ ((cfg0.win 2).blk t).view.set := by
  have hN : cfg0.N = 128 := N_0
  have hi0 : (i 0).val < 4096 := (i 0).isLt
  have hi1 : (i 1).val < 1 := (i 1).isLt
  let t : Fin cfg0.N := ⟨(i 0).val / 32, by rw [hN]; omega⟩
  obtain ⟨-, -, -, -, e0, e1⟩ := idx_facts t
  refine ⟨t, flush0_2 t, ?_⟩
  rw [mem_blk]
  intro a
  match a with
  | ⟨0, _⟩ =>
    show win0_2.index t (0 : Fin 2) * 32 ≤ (i 0).val ∧ (i 0).val < win0_2.index t (0 : Fin 2) * 32 + 32
    rw [e0]; show (i 0).val / 32 * 32 ≤ (i 0).val ∧ (i 0).val < (i 0).val / 32 * 32 + 32; omega
  | ⟨1, _⟩ =>
    show win0_2.index t (1 : Fin 2) * 1 ≤ (i 1).val ∧ (i 1).val < win0_2.index t (1 : Fin 2) * 1 + 1
    rw [e1]; omega

/-- After the region the loss column holds every row's loss. -/
theorem final (c : Dev nD) : (dats m 0 c).arrAt 2 cfg0.N = G m c :=
  (dats m 0 c).arrAt_eq_of_cover 2 (G m c) (fun t _ => flushed_eq m c t) cover

/-- The mean of the kernel's row losses. -/
def result (c : Dev nD) : S_.Idx → Elt Ideal .f32 :=
  fun _ => mean (fun b => lossK (fun j => X m c (ix2 b j)) (T m c (ix1 b)))

theorem tail (c : Dev nD) :
    Pipeline.afterTail₀ cfgs (dats m) 0 (V0 m) [hostOps1] c main_v3 = result m c := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.tc.devRef main_v1)
      = G m c :=
    (Pipeline.withArrays_arr spec0 launch0.win.arr_inj c _ _ 2).trans (final m c)
  rw [e]
  funext i
  show Ideal.div (Ideal.hostReduceAdd reducesTo_S4096x1_S_d0_1 (G m c) zero i) nrows = _
  rw [Ideal.hostReduceAdd_total reducesTo_S4096x1_S_d0_1 (fun b => b.elim0) (G m c) _ i, sum_idx2]
  unfold result mean
  refine congrArg (fun s => Ideal.div (zero + s) nrows) (Finset.sum_congr rfl fun b _ => ?_)
  rw [Fin.sum_univ_one]
  exact G_apply m c _ b rfl

/-- The kernel's program: every weakly fair execution ends with the result at the mean of the kernel's row losses and
    the arguments as launched. -/
theorem run : θ_run defs (onTc (τ := τ) (main (F := Ideal))) ⟨m, fun _ => 0, ρ⟩ fun r => ∀ c : Dev nD,
      r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v3 (Pipeline.mem_restRefs_of main_v3 (by decide) (by decide))).trans (tail m c),
       ((h c).1 0).trans (((dats m 0 c).arrAt_in 0 rfl _).trans ((A_eq m c 0).trans (V_main_arg0 m c))),
       ((h c).2 main_arg1 (Pipeline.mem_restRefs_of main_arg1 (by decide) (by decide))).trans (W_main_arg1 m (dats m) c)⟩)
    (run_main m ρ)

end Cert.KernelValue

end
-- ==== Proof.lean ====
/-
  The confidence-margin loss: a fused kernel against its jnp reference, over the extended reals.

  Both programs take logits `x` (4096 rows of 50257 classes) and one label per row, and return the mean over the rows of
  `-log (p_label + ε) - log (1 - p_other + ε)`, where `p` is the softmax of the row, `p_label` its value at the label's
  class and `p_other` its largest value off that class.  The precondition keeps every logit finite and every label a
  class, `0 ≤ label < 50257`: outside that range the reference's lookup reads no class of the row.

  The kernel never forms the softmax row.  With `xt` the label's logit and `xmi` the largest other logit (two maxima over
  the row, the other entries masked to `-∞`), it normalises by `m = max xt xmi` and `s = Σ exp (x - m)` and takes
  `exp (xt - m) / s` and `exp (xmi - m) / s`.  This is the reference's pair of numbers: `m` is the row maximum; the label's
  probability is the first quotient; and `y ↦ exp (y - m) / s` is monotone, so it carries the maximum of the other logits
  to the maximum of the other probabilities (Proof/Algebra.lean).  What each program leaves in its result is read in
  Proof/KernelValue.lean (over the row formula of Proof/KernelRow.lean) and Proof/RefValue.lean; the precondition is
  opened in Proof/PreDecode.lean; the common vocabulary is Proof/Spec.lean.
-/
import proofs.«403393_j64725157151246_3_alg».proof.Defs
import proofs.«403393_j64725157151246_3_alg».proof.Proof.Gen.Kernel
import proofs.«403393_j64725157151246_3_alg».proof.Proof.Gen.Kernel.Frame
import proofs.«403393_j64725157151246_3_alg».proof.Proof.Gen.KernelIdeal
import proofs.«403393_j64725157151246_3_alg».proof.Proof.Gen.KernelIdeal.Frame
import proofs.«403393_j64725157151246_3_alg».proof.Proof.Gen.ReferenceIdeal
import proofs.«403393_j64725157151246_3_alg».proof.Proof.Gen.ReferenceIdeal.Run
import proofs.«403393_j64725157151246_3_alg».proof.Proof.Gen.ReferenceIdeal.Read
import proofs.«403393_j64725157151246_3_alg».proof.Proof.Gen.Pre_finite_inputs
import proofs.«403393_j64725157151246_3_alg».proof.Proof.Spec
import proofs.«403393_j64725157151246_3_alg».proof.Proof.Algebra
import proofs.«403393_j64725157151246_3_alg».proof.Proof.PreDecode
import proofs.«403393_j64725157151246_3_alg».proof.Proof.RefValue
import proofs.«403393_j64725157151246_3_alg».proof.Proof.KernelValue

noncomputable section

namespace Cert.Proof

open Idealize.ShloMosaic Idealize.SL.Sem Idealize.ShloMosaic.ValueIdx Cert.Spec

/-- The kernel's program as printed terminates and leaves its arguments alone. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference is a straight line of host operations: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Nothing of the kernel was rewritten on the way to the extended reals. -/
theorem preserves : Cert.preserves_Kernel_KernelIdeal := trivial

/-- Both programs end at the mean of the row losses; row by row the kernel's loss is the reference's, the labels being
    classes (the logits' finiteness is at hand and handed on, though monotonicity alone carries the argument). -/
theorem algebraic : Cert.algebraic_KernelIdeal_ReferenceIdeal := by
  intro m ρ m' ρ' hpre hagree
  refine ⟨fun c => Cert.KernelValue.result m c, Cert.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨hfin, hrange⟩ := Cert.PreDecode.decode _ _ (hpre c)
  rw [Cert.ReferenceIdeal.Read.val_main_v33_eq, (hagree c).1, (hagree c).2,
    Cert.RefValue.ref_value _ _ (fun b => hrange (ix1 b))]
  unfold Cert.KernelValue.result
  funext _
  refine congrArg Cert.Spec.mean (funext fun b => ?_)
  exact (Cert.Algebra.lossK_eq_lossR _ _ (fun j => hfin _) (hrange _).1 (hrange _).2).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
